-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S1x1024 : Shape := ⟨2, ![1, 1024]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KKit.lean ====
/-
  The program up to its one kernel region, read as a frame: six host operations (three concatenations of the four
  gates' parameters along the gate axis, two changes of float format, one reshape of the fused bias to a row) run
  before the region, so the region finds every buffer at the fold of those operations over the launch memory; none
  of them writes an argument array, so each argument is found as launched. A window's block at a grid point is its
  array read through the block's rectangle, and an input window's staging buffer holds that block at every point,
  whether the point fetches it (the three batch-tiled operands) or not (the three resident parameter blocks, whose
  index never moves). From a run that ends with every staged array at what the proof data computes and every other
  buffer as the region found it, the fifteen argument arrays end unchanged.
-/
import proofs.«158716_j71957882077215_1_alg».proof.Proof.Gen.Kernel.Launch
import proofs.«158716_j71957882077215_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the six host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every staged array at what the proof data computes from the region-entry contents, and every
    other unscoped buffer as the region found it, ends with the fifteen argument arrays as launched: the three staged
    inputs are never written back, and the twelve parameter arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Hand

end
-- ==== Proof.KBody.lean ====
/-
  One grid point of the kernel on its staging buffers. The body reads the three batch tiles whole, reads the four
  gates' column slices of the two resident parameter blocks and of the bias row, and stores the new hidden tile and
  the new cell tile whole, each through one rectangle that is the whole buffer. So after the body each output
  buffer holds its one store's value: a pure function of what the loads read.
-/
import proofs.«158716_j71957882077215_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through -/

/-- A whole batch tile. -/
abbrev rA : Rect S256x1024 := Rect.unit (s := S256x1024) ![0, 0] S256x1024.size inb_S256x1024_S256x1024_0_0
/-- Gate `g`'s columns of a resident parameter block. -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Gate `g`'s columns of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in the two output buffers -/

/-- The new cell tile: the one store into the second output's buffer, over what the loads read. -/
def cellTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rA, k0_pay1 (k0_pay3 (View.ld x0 rA)) (k0_pay4 (View.ld x1 rA)) (View.ld x2 rA) (k0_pay5 (View.ld x0 rA) (View.ld x1 rA) (View.ld x3 rW0) (View.ld x4 rW0) (View.ld x5 rB0)) (k0_pay6 (View.ld x0 rA) (View.ld x1 rA) (View.ld x3 rW1) (View.ld x4 rW1) (View.ld x5 rB1)) (k0_pay7 (View.ld x3 rW2)) (k0_pay8 (View.ld x4 rW2)) (View.ld x5 rB2)⟩]

/-- The new hidden tile: the one store into the first output's buffer, over what the loads read. -/
def hiddenTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rA, k0_pay2 (k0_pay3 (View.ld x0 rA)) (k0_pay4 (View.ld x1 rA)) (View.ld x2 rA) (k0_pay5 (View.ld x0 rA) (View.ld x1 rA) (View.ld x3 rW0) (View.ld x4 rW0) (View.ld x5 rB0)) (k0_pay6 (View.ld x0 rA) (View.ld x1 rA) (View.ld x3 rW1) (View.ld x4 rW1) (View.ld x5 rB1)) (k0_pay7 (View.ld x3 rW2)) (k0_pay8 (View.ld x4 rW2)) (View.ld x5 rB2) (View.ld x3 rW3) (View.ld x4 rW3) (View.ld x5 rB3)⟩]

/-- A store through the whole-tile rectangle covers the tile. -/
theorem cover_tile (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the six inputs' at read contents and the two outputs' at anything, the body runs to the
    continuation with the inputs' buffers as they were and the outputs' at the hidden tile and the cell tile. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hiddenTile x0 x1 x2 x3 x4 x5) ∗ owns (c : Thread nD τ) arg8 fullShare (cellTile x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_tile _)
  iexists _; isplitr
  swap; · iexact H7
  ipureintro
  try dsimp only
  exact View.read_writes_eq_canon _ _ _ (cover_tile _)

end Cert.Kernel.Hand

end
-- ==== Proof.KRun.lean ====
/-
  The pipeline's proof data and the run. After the body at a grid point each input window's staging buffer still holds
  its block, the first output's holds the new hidden tile and the second's the new cell tile, both computed from the six
  input blocks at that point; the kernel keeps nothing between points and signals no one. With the body's triple this
  is the per-point obligation of the pipeline, so @main runs to the end with every staged array at what the library
  assembles from the proof data, and the argument arrays end unchanged.
-/
import proofs.«158716_j71957882077215_1_alg».proof.Proof.KKit
import proofs.«158716_j71957882077215_1_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input's buffer at its block and the two
    outputs' at the hidden and cell tiles of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenTile (iblk m c 0 t) (iblk m c 1 t) (iblk m c 2 t) (iblk m c 3 t) (iblk m c 4 t) (iblk m c 5 t)
    | ⟨7, _⟩ => cellTile (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hiddenTile (iblk m c 0 t) (iblk m c 1 t) (iblk m c 2 t) (iblk m c 3 t) (iblk m c 4 t) (iblk m c 5 t) := by dsimp only [dats]
theorem after0_7 (c : Dev nD) (t : Fin cfg0.N) : (dats m 0 c).after 7 t = cellTile (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KIKit.lean ====
/-
  The program up to its one kernel region, read as a frame: six host operations (three concatenations of the four
  gates' parameters along the gate axis, two changes of float format, one reshape of the fused bias to a row) run
  before the region, so the region finds every buffer at the fold of those operations over the launch memory; none
  of them writes an argument array, so each argument is found as launched. A window's block at a grid point is its
  array read through the block's rectangle, and an input window's staging buffer holds that block at every point,
  whether the point fetches it (the three batch-tiled operands) or not (the three resident parameter blocks, whose
  index never moves). From a run that ends with every staged array at what the proof data computes and every other
  buffer as the region found it, the fifteen argument arrays end unchanged.
-/
import proofs.«158716_j71957882077215_1_alg».proof.Proof.Gen.KernelIdeal.Launch
import proofs.«158716_j71957882077215_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the six host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- The host operations write only their own results, never argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every staged array at what the proof data computes from the region-entry contents, and every
    other unscoped buffer as the region found it, ends with the fifteen argument arrays as launched: the three staged
    inputs are never written back, and the twelve parameter arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Hand

end
-- ==== Proof.KIBody.lean ====
/-
  One grid point of the kernel on its staging buffers. The body reads the three batch tiles whole, reads the four
  gates' column slices of the two resident parameter blocks and of the bias row, and stores the new hidden tile and
  the new cell tile whole, each through one rectangle that is the whole buffer. So after the body each output
  buffer holds its one store's value: a pure function of what the loads read.
-/
import proofs.«158716_j71957882077215_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through -/

/-- A whole batch tile. -/
abbrev rA : Rect S256x1024 := Rect.unit (s := S256x1024) ![0, 0] S256x1024.size inb_S256x1024_S256x1024_0_0
/-- Gate `g`'s columns of a resident parameter block. -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Gate `g`'s columns of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in the two output buffers -/

/-- The new cell tile: the one store into the second output's buffer, over what the loads read. -/
def cellTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rA, k0_pay1 (k0_pay3 (View.ld x0 rA)) (k0_pay4 (View.ld x1 rA)) (View.ld x2 rA) (k0_pay5 (View.ld x0 rA) (View.ld x1 rA) (View.ld x3 rW0) (View.ld x4 rW0) (View.ld x5 rB0)) (k0_pay6 (View.ld x0 rA) (View.ld x1 rA) (View.ld x3 rW1) (View.ld x4 rW1) (View.ld x5 rB1)) (k0_pay7 (View.ld x3 rW2)) (k0_pay8 (View.ld x4 rW2)) (View.ld x5 rB2)⟩]

/-- The new hidden tile: the one store into the first output's buffer, over what the loads read. -/
def hiddenTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rA, k0_pay2 (k0_pay3 (View.ld x0 rA)) (k0_pay4 (View.ld x1 rA)) (View.ld x2 rA) (k0_pay5 (View.ld x0 rA) (View.ld x1 rA) (View.ld x3 rW0) (View.ld x4 rW0) (View.ld x5 rB0)) (k0_pay6 (View.ld x0 rA) (View.ld x1 rA) (View.ld x3 rW1) (View.ld x4 rW1) (View.ld x5 rB1)) (k0_pay7 (View.ld x3 rW2)) (k0_pay8 (View.ld x4 rW2)) (View.ld x5 rB2) (View.ld x3 rW3) (View.ld x4 rW3) (View.ld x5 rB3)⟩]

/-- A store through the whole-tile rectangle covers the tile. -/
theorem cover_tile (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the six inputs' at read contents and the two outputs' at anything, the body runs to the
    continuation with the inputs' buffers as they were and the outputs' at the hidden tile and the cell tile. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hiddenTile x0 x1 x2 x3 x4 x5) ∗ owns (c : Thread nD τ) arg8 fullShare (cellTile x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_tile _)
  iexists _; isplitr
  swap; · iexact H7
  ipureintro
  try dsimp only
  exact View.read_writes_eq_canon _ _ _ (cover_tile _)

end Cert.KernelIdeal.Hand

end
-- ==== Proof.KIRun.lean ====
/-
  The pipeline's proof data and the run. After the body at a grid point each input window's staging buffer still holds
  its block, the first output's holds the new hidden tile and the second's the new cell tile, both computed from the six
  input blocks at that point; the kernel keeps nothing between points and signals no one. With the body's triple this
  is the per-point obligation of the pipeline, so @main runs to the end with every staged array at what the library
  assembles from the proof data, and the argument arrays end unchanged.
-/
import proofs.«158716_j71957882077215_1_alg».proof.Proof.KIKit
import proofs.«158716_j71957882077215_1_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` each input's buffer at its block and the two
    outputs' at the hidden and cell tiles of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenTile (iblk m c 0 t) (iblk m c 1 t) (iblk m c 2 t) (iblk m c 3 t) (iblk m c 4 t) (iblk m c 5 t)
    | ⟨7, _⟩ => cellTile (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hiddenTile (iblk m c 0 t) (iblk m c 1 t) (iblk m c 2 t) (iblk m c 3 t) (iblk m c 4 t) (iblk m c 5 t) := by dsimp only [dats]
theorem after0_7 (c : Dev nD) (t : Fin cfg0.N) : (dats m 0 c).after 7 t = cellTile (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KIHost.lean ====
/-
  What the three windows over host-computed buffers hold when the region is entered, at the ideal values: the two
  fused parameter blocks are the concatenations of the four gates' matrices (the change of float format is the
  identity on extended reals), and the bias row is the concatenation of the four gates' biases laid out as one row.
-/
import proofs.«158716_j71957882077215_1_alg».proof.Proof.KIKit
import Idealize.ShloMosaic.PureOps.Ideal
import Idealize.ShloMosaic.Lib.ValueIdx
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The four gates' input weights side by side. -/
def Wcat (c : Dev nD) : S1024x4096.Idx → EReal :=
  concatenate S1024x4096 1 [⟨S1024x1024, (m ((c : Thread nD τ).loc main_arg3))⟩, ⟨S1024x1024, (m ((c : Thread nD τ).loc main_arg6))⟩, ⟨S1024x1024, (m ((c : Thread nD τ).loc main_arg9))⟩, ⟨S1024x1024, (m ((c : Thread nD τ).loc main_arg12))⟩] concatenates_S1024x1024_S1024x1024_S1024x1024_S1024x1024_S1024x4096_d1

/-- The four gates' recurrent weights side by side. -/
def Ucat (c : Dev nD) : S1024x4096.Idx → EReal :=
  concatenate S1024x4096 1 [⟨S1024x1024, (m ((c : Thread nD τ).loc main_arg4))⟩, ⟨S1024x1024, (m ((c : Thread nD τ).loc main_arg7))⟩, ⟨S1024x1024, (m ((c : Thread nD τ).loc main_arg10))⟩, ⟨S1024x1024, (m ((c : Thread nD τ).loc main_arg13))⟩] concatenates_S1024x1024_S1024x1024_S1024x1024_S1024x1024_S1024x4096_d1

/-- The four gates' biases end to end. -/
def bcat (c : Dev nD) : S4096.Idx → EReal :=
  concatenate S4096 0 [⟨S1024, (m ((c : Thread nD τ).loc main_arg5))⟩, ⟨S1024, (m ((c : Thread nD τ).loc main_arg8))⟩, ⟨S1024, (m ((c : Thread nD τ).loc main_arg11))⟩, ⟨S1024, (m ((c : Thread nD τ).loc main_arg14))⟩] concatenates_S1024_S1024_S1024_S1024_S4096_d0

/-- The region finds the fused input weights in the fourth window's array. -/
theorem V_main_v1 (c : Dev nD) : (V m c main_v1 : S1024x4096.Idx → EReal) = Wcat m c := by
  -- the change of float format is the identity at every index, leaving the concatenation itself
  dsimp only [V, hostOps0]
  after_results
  unfold Wcat
  funext i
  rfl

/-- The region finds the fused recurrent weights in the fifth window's array. -/
theorem V_main_v3 (c : Dev nD) : (V m c main_v3 : S1024x4096.Idx → EReal) = Ucat m c := by
  -- the change of float format is the identity at every index, leaving the concatenation itself
  dsimp only [V, hostOps0]
  after_results
  unfold Ucat
  funext i
  rfl

/-- The region finds the fused bias, as one row, in the sixth window's array. -/
theorem V_main_v5_apply (c : Dev nD) (j : Fin 4096) : (V m c main_v5 : S1x4096.Idx → EReal) (ix2 0 j) = bcat m c (ix1 j) := by
  -- the row is the reshape of the concatenation; each gate's bias is an argument no earlier operation writes
  dsimp only [V]
  simp only [StableHlo.after_cons, StableHlo.after_nil]
  rw [StableHlo.reshape_result, StableHlo.nary4_result]
  repeat (first
    | (rw [StableHlo.unary_result_ne]; rotate_left; decide)
    | (rw [StableHlo.nary_result_ne]; rotate_left; decide))
  -- position (0, j) of the one-row shape and position j of the flat shape are the same row-major position
  show shapeCast S1x4096 (bcat m c) shapeCasts_S4096_S1x4096 (ix2 0 j) = bcat m c (ix1 j)
  refine shapeCast_apply _ _ _ _ ?_
  rw [Shape.rowMajor_val_one, Shape.rowMajor_val_two]
  show j.val = 0 * 4096 + j.val
  omega

end Cert.KernelIdeal.Hand

end
-- ==== Proof.Spec.lean ====
/-
  The cell this kernel computes, as mathematics over the extended reals.

  A batch row `r` and a hidden column `c` see four gates. Gate `g` reads column `1024 g + c` of the two fused
  parameter blocks (input weights and recurrent weights, each the four gates' matrices side by side) and entry
  `1024 g + c` of the fused bias:   z_g = Σ_k x[r,k] W[k, 1024 g + c] + Σ_k h[r,k] U[k, 1024 g + c] + b[1024 g + c].
  The new cell value is   σ(z_0) · c_prev[r,c] + σ(z_1) · tanh(z_2),   the new hidden value   σ(z_3) · tanh(new cell),
  with σ the logistic function 1 / (1 + e^{-z}). Both programs compute exactly these expressions, with the sums and
  the products in this order, so no law of the extended reals beyond the definitions is needed to join them.
-/
import Idealize.ShloMosaic.PureOps.Ideal
import Idealize.ShloMosaic.Lib.ValueIdx

noncomputable section

namespace Cert.Spec

open Idealize.ShloMosaic Idealize.ShloMosaic.ValueIdx

/-- Column `1024 g + c` of a fused block: gate `g`'s column `c`. -/
def col (g : Fin 4) (c : Fin 1024) : Fin 4096 := ⟨1024 * g.val + c.val, by omega⟩

/-- A gate's pre-activation from a row of the input, a row of the previous hidden state, a column of each fused
    parameter block and a bias entry. -/
def gateOf (xr hr wcol ucol : Fin 1024 → EReal) (b : EReal) : EReal :=
  (∑ k : Fin 1024, xr k * wcol k) + (∑ k : Fin 1024, hr k * ucol k) + b

/-- The new cell value from the forget, input and candidate pre-activations and the previous cell value. -/
def cellOf (zf zi zg cp : EReal) : EReal :=
  Ideal.logistic zf * cp + Ideal.logistic zi * Ideal.tanh zg

/-- The new hidden value from the output pre-activation and the new cell value. -/
def hiddenOf (zo cnew : EReal) : EReal :=
  Ideal.logistic zo * Ideal.tanh cnew

/-- Gate `g` at batch row `r` and hidden column `c`, over whole arrays. -/
def gate (x h : (⟨2, ![4096, 1024]⟩ : Shape).Idx → EReal) (Wc Uc : (⟨2, ![1024, 4096]⟩ : Shape).Idx → EReal)
    (bc : (⟨1, ![4096]⟩ : Shape).Idx → EReal) (g : Fin 4) (r : Fin 4096) (c : Fin 1024) : EReal :=
  gateOf (fun k => x (ix2 r k)) (fun k => h (ix2 r k)) (fun k => Wc (ix2 k (col g c))) (fun k => Uc (ix2 k (col g c)))
    (bc (ix1 (col g c)))

/-- The new cell state at `(r, c)`. -/
def cellAt (x h cp : (⟨2, ![4096, 1024]⟩ : Shape).Idx → EReal) (Wc Uc : (⟨2, ![1024, 4096]⟩ : Shape).Idx → EReal)
    (bc : (⟨1, ![4096]⟩ : Shape).Idx → EReal) (r : Fin 4096) (c : Fin 1024) : EReal :=
  cellOf (gate x h Wc Uc bc 0 r c) (gate x h Wc Uc bc 1 r c) (gate x h Wc Uc bc 2 r c) (cp (ix2 r c))

/-- The new hidden state at `(r, c)`. -/
def hiddenAt (x h cp : (⟨2, ![4096, 1024]⟩ : Shape).Idx → EReal) (Wc Uc : (⟨2, ![1024, 4096]⟩ : Shape).Idx → EReal)
    (bc : (⟨1, ![4096]⟩ : Shape).Idx → EReal) (r : Fin 4096) (c : Fin 1024) : EReal :=
  hiddenOf (gate x h Wc Uc bc 3 r c) (cellAt x h cp Wc Uc bc r c)

/-- The new cell state as an array. -/
def cellNew (x h cp : (⟨2, ![4096, 1024]⟩ : Shape).Idx → EReal) (Wc Uc : (⟨2, ![1024, 4096]⟩ : Shape).Idx → EReal)
    (bc : (⟨1, ![4096]⟩ : Shape).Idx → EReal) : (⟨2, ![4096, 1024]⟩ : Shape).Idx → EReal :=
  fun j => cellAt x h cp Wc Uc bc (j 0) (j 1)

/-- The new hidden state as an array. -/
def hiddenNew (x h cp : (⟨2, ![4096, 1024]⟩ : Shape).Idx → EReal) (Wc Uc : (⟨2, ![1024, 4096]⟩ : Shape).Idx → EReal)
    (bc : (⟨1, ![4096]⟩ : Shape).Idx → EReal) : (⟨2, ![4096, 1024]⟩ : Shape).Idx → EReal :=
  fun j => hiddenAt x h cp Wc Uc bc (j 0) (j 1)

/-- Gate `g` at row `p` of a 256-row batch tile, from the tile of the input, the tile of the previous hidden state,
    the two fused parameter blocks and the fused bias as a one-row matrix. -/
def tileGate (xb hb : (⟨2, ![256, 1024]⟩ : Shape).Idx → EReal) (Wc Uc : (⟨2, ![1024, 4096]⟩ : Shape).Idx → EReal)
    (brow : (⟨2, ![1, 4096]⟩ : Shape).Idx → EReal) (g : Fin 4) (p : Fin 256) (q : Fin 1024) : EReal :=
  gateOf (fun k => xb (ix2 p k)) (fun k => hb (ix2 p k)) (fun k => Wc (ix2 k (col g q))) (fun k => Uc (ix2 k (col g q)))
    (brow (ix2 0 (col g q)))

/-- The new cell value at `(p, q)` of a tile. -/
def tileCell (xb hb cb : (⟨2, ![256, 1024]⟩ : Shape).Idx → EReal) (Wc Uc : (⟨2, ![1024, 4096]⟩ : Shape).Idx → EReal)
    (brow : (⟨2, ![1, 4096]⟩ : Shape).Idx → EReal) (p : Fin 256) (q : Fin 1024) : EReal :=
  cellOf (tileGate xb hb Wc Uc brow 0 p q) (tileGate xb hb Wc Uc brow 1 p q) (tileGate xb hb Wc Uc brow 2 p q) (cb (ix2 p q))

/-- The new hidden value at `(p, q)` of a tile. -/
def tileHidden (xb hb cb : (⟨2, ![256, 1024]⟩ : Shape).Idx → EReal) (Wc Uc : (⟨2, ![1024, 4096]⟩ : Shape).Idx → EReal)
    (brow : (⟨2, ![1, 4096]⟩ : Shape).Idx → EReal) (p : Fin 256) (q : Fin 1024) : EReal :=
  hiddenOf (tileGate xb hb Wc Uc brow 3 p q) (tileCell xb hb cb Wc Uc brow p q)

end Cert.Spec

end
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.KITile.lean ====
/-
  The two tiles the body stores, read at an index of the tile, at the ideal values: each is the cell of the
  specification over the tile's rows of the input, of the previous hidden state and of the previous cell state, the
  two resident parameter blocks and the bias row.
-/
import proofs.«158716_j71957882077215_1_alg».proof.Proof.KIBody
import proofs.«158716_j71957882077215_1_alg».proof.Proof.Spec
import proofs.«158716_j71957882077215_1_alg».proof.Proof.LibPlainProduct
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The product's operand indices, axis by axis

The body's products contract the left operand's second axis with the right operand's first one: at output index `i`
and contraction position `k` the left operand is read at `(i 0, k)` and the right one at `(k, i 1)`. -/

theorem lhs_tile_0 (i : S256x1024.Idx) (k : dot_S256x1024_S1024x1024_S256x1024_1_0_0_1_n_n.contr.Idx) :
    (dot_S256x1024_S1024x1024_S256x1024_1_0_0_1_n_n.lhsIdx i k 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_tile_1 (i : S256x1024.Idx) (k : dot_S256x1024_S1024x1024_S256x1024_1_0_0_1_n_n.contr.Idx) :
    (dot_S256x1024_S1024x1024_S256x1024_1_0_0_1_n_n.lhsIdx i k 1).val = (k ⟨0, by decide⟩).val :=
  dot_S256x1024_S1024x1024_S256x1024_1_0_0_1_n_n.lhsIdx_val_of_single rfl i k
theorem rhs_tile_0 (i : S256x1024.Idx) (k : dot_S256x1024_S1024x1024_S256x1024_1_0_0_1_n_n.contr.Idx) :
    (dot_S256x1024_S1024x1024_S256x1024_1_0_0_1_n_n.rhsIdx i k 0).val = (k ⟨0, by decide⟩).val :=
  dot_S256x1024_S1024x1024_S256x1024_1_0_0_1_n_n.rhsIdx_val_of_single rfl i k
theorem rhs_tile_1 (i : S256x1024.Idx) (k : dot_S256x1024_S1024x1024_S256x1024_1_0_0_1_n_n.contr.Idx) :
    (dot_S256x1024_S1024x1024_S256x1024_1_0_0_1_n_n.rhsIdx i k 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product of a 256×1024 tile with a 1024×1024 block into the zero accumulator, at `(p, q)`: row `p` of the tile
    against column `q` of the block. -/
theorem product_apply (a : FVec Ideal S256x1024 .bf16) (w : FVec Ideal S1024x1024 .bf16) (p : Fin 256) (q : Fin 1024) :
    matmul dot_S256x1024_S1024x1024_S256x1024_1_0_0_1_n_n none a w (constant (F := Ideal) S256x1024 .f32 0x00000000#32) (ix2 p q)
      = ∑ k : Fin 1024, a (ix2 p k) * w (ix2 k q) :=
  Idealize.ShloMosaic.PlainProduct.matmul_zero_apply dot_S256x1024_S1024x1024_S256x1024_1_0_0_1_n_n rfl rfl lhs_tile_0 lhs_tile_1 rhs_tile_0 rhs_tile_1 none a w p q

/-! ## One gate's pre-activation -/

/-- The two products added, plus the bias row broadcast down the tile's rows, at `(p, q)`. -/
theorem gate_core (a b : FVec Ideal S256x1024 .bf16) (w u : FVec Ideal S1024x1024 .bf16) (r : FVec Ideal S1x1024 .f32)
    (p : Fin 256) (q : Fin 1024) :
    addf (addf (matmul dot_S256x1024_S1024x1024_S256x1024_1_0_0_1_n_n none a w (constant (F := Ideal) S256x1024 .f32 0x00000000#32))
          (matmul dot_S256x1024_S1024x1024_S256x1024_1_0_0_1_n_n none b u (constant (F := Ideal) S256x1024 .f32 0x00000000#32)))
        (broadcastTo S256x1024 r broadcasts_S1x1024_S256x1024) (ix2 p q)
      = Cert.Spec.gateOf (fun k => a (ix2 p k)) (fun k => b (ix2 p k)) (fun k => w (ix2 k q)) (fun k => u (ix2 k q))
          (r (ix2 0 q)) := by
  show matmul dot_S256x1024_S1024x1024_S256x1024_1_0_0_1_n_n none a w (constant (F := Ideal) S256x1024 .f32 0x00000000#32) (ix2 p q)
      + matmul dot_S256x1024_S1024x1024_S256x1024_1_0_0_1_n_n none b u (constant (F := Ideal) S256x1024 .f32 0x00000000#32) (ix2 p q)
      + broadcastTo S256x1024 r broadcasts_S1x1024_S256x1024 (ix2 p q) = _
  rw [product_apply, product_apply]
  rw [broadcastTo_1b_ab_apply r broadcasts_S1x1024_S256x1024 p q]
  rfl

/-- The first and second gates' pre-activations: the same expression over the tiles rounded to the narrow format (no
    change of value here) and the loaded slices. -/
theorem gate5_apply (v0 v2 : Vec Ideal S256x1024 .f32) (v5 v7 : Vec Ideal S1024x1024 .bf16) (v9 : Vec Ideal S1x1024 .f32)
    (p : Fin 256) (q : Fin 1024) :
    k0_pay5 (F := Ideal) v0 v2 v5 v7 v9 (ix2 p q)
      = Cert.Spec.gateOf (fun k => v0 (ix2 p k)) (fun k => v2 (ix2 p k)) (fun k => v5 (ix2 k q)) (fun k => v7 (ix2 k q))
          (v9 (ix2 0 q)) := by
  unfold k0_pay5
  refine (gate_core (k0_pay3 v0) (k0_pay4 v2) _ _ _ p q).trans ?_
  rw [shapeCast_self v5, shapeCast_self v7, shapeCast_self v9]
  rfl

theorem gate6_apply (v0 v2 : Vec Ideal S256x1024 .f32) (v16 v18 : Vec Ideal S1024x1024 .bf16) (v20 : Vec Ideal S1x1024 .f32)
    (p : Fin 256) (q : Fin 1024) :
    k0_pay6 (F := Ideal) v0 v2 v16 v18 v20 (ix2 p q)
      = Cert.Spec.gateOf (fun k => v0 (ix2 p k)) (fun k => v2 (ix2 p k)) (fun k => v16 (ix2 k q)) (fun k => v18 (ix2 k q))
          (v20 (ix2 0 q)) := by
  unfold k0_pay6
  refine (gate_core (k0_pay3 v0) (k0_pay4 v2) _ _ _ p q).trans ?_
  rw [shapeCast_self v16, shapeCast_self v18, shapeCast_self v20]
  rfl

/-! ## The new cell value and the new hidden value -/

/-- The cell payload at `(p, q)`: the forget gate times the previous cell value plus the input gate times the
    candidate, the candidate's pre-activation computed in place. -/
theorem cell_apply (v1 v3 : FVec Ideal S256x1024 .bf16) (v4 : Vec Ideal S256x1024 .f32) (v15 v26 : FVec Ideal S256x1024 .f32)
    (v28 v30 : FVec Ideal S1024x1024 .bf16) (v31 : Vec Ideal S1x1024 .f32) (p : Fin 256) (q : Fin 1024) :
    k0_pay1 (F := Ideal) v1 v3 v4 v15 v26 v28 v30 v31 (ix2 p q)
      = Cert.Spec.cellOf (v15 (ix2 p q)) (v26 (ix2 p q))
          (Cert.Spec.gateOf (fun k => v1 (ix2 p k)) (fun k => v3 (ix2 p k)) (fun k => v28 (ix2 k q)) (fun k => v30 (ix2 k q))
            (v31 (ix2 0 q)))
          (v4 (ix2 p q)) := by
  unfold k0_pay1
  refine (congrArg (fun z => Ideal.logistic (v15 (ix2 p q)) * v4 (ix2 p q) + Ideal.logistic (v26 (ix2 p q)) * Ideal.tanh z)
    (gate_core v1 v3 v28 v30 _ p q)).trans ?_
  rw [shapeCast_self v31]
  rfl

/-- The hidden payload at `(p, q)`: the output gate, its pre-activation computed in place, times the hyperbolic
    tangent of the new cell value. -/
theorem hidden_apply (v1 v3 : FVec Ideal S256x1024 .bf16) (v4 : Vec Ideal S256x1024 .f32) (v15 v26 : FVec Ideal S256x1024 .f32)
    (v28 v30 : FVec Ideal S1024x1024 .bf16) (v31 : Vec Ideal S1x1024 .f32) (v38 v40 : Vec Ideal S1024x1024 .bf16)
    (v42 : Vec Ideal S1x1024 .f32) (p : Fin 256) (q : Fin 1024) :
    k0_pay2 (F := Ideal) v1 v3 v4 v15 v26 v28 v30 v31 v38 v40 v42 (ix2 p q)
      = Cert.Spec.hiddenOf
          (Cert.Spec.gateOf (fun k => v1 (ix2 p k)) (fun k => v3 (ix2 p k)) (fun k => v38 (ix2 k q)) (fun k => v40 (ix2 k q))
            (v42 (ix2 0 q)))
          (k0_pay1 (F := Ideal) v1 v3 v4 v15 v26 v28 v30 v31 (ix2 p q)) := by
  unfold k0_pay2
  refine (congrArg (fun z => Ideal.logistic z * Ideal.tanh (k0_pay1 (F := Ideal) v1 v3 v4 v15 v26 v28 v30 v31 (ix2 p q)))
    (gate_core v1 v3 _ _ _ p q)).trans ?_
  rw [shapeCast_self v38, shapeCast_self v40, shapeCast_self v42]
  rfl

/-! ## The loads

A whole-tile load reads the tile. Gate `g`'s load of a resident parameter block reads, at `(k, c)`, the block at
row `k` and column `1024 g + c`; its load of the bias row reads, at `(0, c)`, the row's entry `1024 g + c`. -/

/-- The whole-tile rectangle's offsets are zero. -/
theorem zero_offsets : (![0, 0] : Fin 2 → Nat) = fun _ => 0 := by
  funext a; match a with | ⟨0, _⟩ => rfl | ⟨1, _⟩ => rfl

/-- A load of 1024 columns from column `o = 1024 g` of a parameter block, at `(k, c)`. -/
theorem ld_block {o : Nat} (inb : ∀ a, (![0, o] : Fin 2 → Nat) a + S1024x1024.size a ≤ S1024x4096.size a)
    (X : Vec Ideal S1024x4096 .bf16) (g : Fin 4) (ho : o = 1024 * g.val) (k c : Fin 1024) :
    View.ld X (Rect.unit (s := S1024x4096) ![0, o] S1024x1024.size inb) (ix2 k c) = X (ix2 k (Cert.Spec.col g c)) :=
  congrArg X (funext fun a => Fin.ext (by
    match a with
    | ⟨0, _⟩ => show 0 + 1 * k.val = k.val; omega
    | ⟨1, _⟩ => show o + 1 * c.val = 1024 * g.val + c.val; omega))

/-- A load of 1024 entries from entry `o = 1024 g` of the bias row, at `(0, c)`. -/
theorem ld_bias {o : Nat} (inb : ∀ a, (![0, o] : Fin 2 → Nat) a + S1x1024.size a ≤ S1x4096.size a)
    (X : Vec Ideal S1x4096 .f32) (g : Fin 4) (ho : o = 1024 * g.val) (c : Fin 1024) :
    View.ld X (Rect.unit (s := S1x4096) ![0, o] S1x1024.size inb) (ix2 0 c) = X (ix2 0 (Cert.Spec.col g c)) :=
  congrArg X (funext fun a => Fin.ext (by
    match a with
    | ⟨0, _⟩ => rfl
    | ⟨1, _⟩ => show o + 1 * c.val = 1024 * g.val + c.val; omega))

/-- A gate's pre-activation over the loads of gate `g`'s slices is the specification's gate `g` of the tile. -/
theorem gate_loads {o : Nat} (inbW : ∀ a, (![0, o] : Fin 2 → Nat) a + S1024x1024.size a ≤ S1024x4096.size a)
    (inbB : ∀ a, (![0, o] : Fin 2 → Nat) a + S1x1024.size a ≤ S1x4096.size a)
    (x0 x1 : Vec Ideal S256x1024 .f32) (x3 x4 : Vec Ideal S1024x4096 .bf16) (x5 : Vec Ideal S1x4096 .f32)
    (g : Fin 4) (ho : o = 1024 * g.val) (p : Fin 256) (q : Fin 1024) :
    Cert.Spec.gateOf (fun k => x0 (ix2 p k)) (fun k => x1 (ix2 p k))
        (fun k => View.ld x3 (Rect.unit (s := S1024x4096) ![0, o] S1024x1024.size inbW) (ix2 k q))
        (fun k => View.ld x4 (Rect.unit (s := S1024x4096) ![0, o] S1024x1024.size inbW) (ix2 k q))
        (View.ld x5 (Rect.unit (s := S1x4096) ![0, o] S1x1024.size inbB) (ix2 0 q))
      = Cert.Spec.tileGate x0 x1 x3 x4 x5 g p q := by
  unfold Cert.Spec.tileGate
  rw [ld_bias inbB x5 g ho q, funext fun k => ld_block inbW x3 g ho k q, funext fun k => ld_block inbW x4 g ho k q]

/-! ## The two tiles -/

/-- A slice handed on through a reshape to its own shape is the slice. -/
theorem pay7_eq (v27 : Vec Ideal S1024x1024 .bf16) : k0_pay7 (F := Ideal) v27 = v27 := shapeCast_self v27 _
theorem pay8_eq (v29 : Vec Ideal S1024x1024 .bf16) : k0_pay8 (F := Ideal) v29 = v29 := shapeCast_self v29 _

/-- The cell tile at row `p`, column `q`. -/
theorem cellTile_apply (x0 x1 x2 : Vec Ideal S256x1024 .f32) (x3 x4 : Vec Ideal S1024x4096 .bf16) (x5 : Vec Ideal S1x4096 .f32) (p : Fin 256) (q : Fin 1024) :
    cellTile (F := Ideal) x0 x1 x2 x3 x4 x5 (ix2 p q) = Cert.Spec.tileCell x0 x1 x2 x3 x4 x5 p q := by
  unfold cellTile
  rw [View.canon_unit_zero zero_offsets]
  simp only [View.ld_unit_zero (S := S256x1024) zero_offsets]
  rw [pay7_eq, pay8_eq]
  refine (cell_apply _ _ _ _ _ _ _ _ p q).trans ?_
  rw [gate5_apply, gate6_apply]
  unfold Cert.Spec.tileCell
  rw [← gate_loads inb_S1024x4096_S1024x1024_0_0 inb_S1x4096_S1x1024_0_0 x0 x1 x3 x4 x5 0 rfl p q,
    ← gate_loads inb_S1024x4096_S1024x1024_0_1024 inb_S1x4096_S1x1024_0_1024 x0 x1 x3 x4 x5 1 rfl p q,
    ← gate_loads inb_S1024x4096_S1024x1024_0_2048 inb_S1x4096_S1x1024_0_2048 x0 x1 x3 x4 x5 2 rfl p q]
  rfl

/-- The hidden tile at row `p`, column `q`. -/
theorem hiddenTile_apply (x0 x1 x2 : Vec Ideal S256x1024 .f32) (x3 x4 : Vec Ideal S1024x4096 .bf16) (x5 : Vec Ideal S1x4096 .f32) (p : Fin 256) (q : Fin 1024) :
    hiddenTile (F := Ideal) x0 x1 x2 x3 x4 x5 (ix2 p q) = Cert.Spec.tileHidden x0 x1 x2 x3 x4 x5 p q := by
  have hc := cellTile_apply x0 x1 x2 x3 x4 x5 p q
  unfold cellTile at hc
  rw [View.canon_unit_zero zero_offsets] at hc
  unfold hiddenTile
  rw [View.canon_unit_zero zero_offsets]
  refine (hidden_apply _ _ _ _ _ _ _ _ _ _ _ p q).trans ?_
  rw [hc]
  unfold Cert.Spec.tileHidden
  rw [← gate_loads inb_S1024x4096_S1024x1024_0_3072 inb_S1x4096_S1x1024_0_3072 x0 x1 x3 x4 x5 3 rfl p q]
  simp only [View.ld_unit_zero (S := S256x1024) zero_offsets]
  rfl

end Cert.KernelIdeal.Hand

end
-- ==== Proof.KIArr.lean ====
/-
  From tiles to arrays. Grid point `t` works on batch rows `256 t … 256 t + 255`: its three batch tiles are those
  rows of the input, the previous hidden state and the previous cell state, its three resident blocks are the two
  fused parameter arrays and the bias row whole, and what it writes back is those rows of the two results. A tile
  entry `(p, q)` therefore is the specification's entry `(256 t + p, q)`, the sixteen blocks fill the 4096 rows, and
  each result array ends holding the specification's array.
-/
import proofs.«158716_j71957882077215_1_alg».proof.Proof.KIRun
import proofs.«158716_j71957882077215_1_alg».proof.Proof.KIHost
import proofs.«158716_j71957882077215_1_alg».proof.Proof.KITile

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Row `p` of point `t`'s tile is batch row `256 t + p`. -/
def row (t : Fin cfg0.N) (p : Fin 256) : Fin 4096 :=
  ⟨256 * t.val + p.val, by have h : t.val < 16 := lt_of_lt_of_eq t.isLt N_0; omega⟩

/-- The printed index maps over the sixteen grid points: the batch-tiled windows sit at block row `t`, the resident
    ones at block zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-! ## The input blocks, named at their literal types -/

abbrev xblk (c : Dev nD) (t : Fin cfg0.N) : Vec Ideal S256x1024 .f32 := iblk m c 0 t
abbrev hblk (c : Dev nD) (t : Fin cfg0.N) : Vec Ideal S256x1024 .f32 := iblk m c 1 t
abbrev cblk (c : Dev nD) (t : Fin cfg0.N) : Vec Ideal S256x1024 .f32 := iblk m c 2 t
abbrev wblk (c : Dev nD) (t : Fin cfg0.N) : Vec Ideal S1024x4096 .bf16 := iblk m c 3 t
abbrev ublk (c : Dev nD) (t : Fin cfg0.N) : Vec Ideal S1024x4096 .bf16 := iblk m c 4 t
abbrev bblk (c : Dev nD) (t : Fin cfg0.N) : Vec Ideal S1x4096 .f32 := iblk m c 5 t

/-- The input tile's row `p` is the input's row `256 t + p`. -/
theorem read_x (c : Dev nD) (t : Fin cfg0.N) (p : Fin 256) (k : Fin 1024) :
    (iblk m c 0 t : S256x1024.Idx → EReal) (ix2 p k) = (m ((c : Thread nD τ).loc main_arg0)) (ix2 (row t p) k) := by
  show V m c main_arg0 (((cfg0.win 0).blk t).view.emb (ix2 p k)) = _
  rw [V_main_arg0]
  refine congrArg _ ?_
  obtain ⟨e00, e01, e10, e11, e20, e21, e30, e31, e40, e41, e50, e51, e60, e61, e70, e71⟩ := idx_facts t
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

/-- The previous hidden state's tile, likewise. -/
theorem read_h (c : Dev nD) (t : Fin cfg0.N) (p : Fin 256) (k : Fin 1024) :
    (iblk m c 1 t : S256x1024.Idx → EReal) (ix2 p k) = (m ((c : Thread nD τ).loc main_arg1)) (ix2 (row t p) k) := by
  show V m c main_arg1 (((cfg0.win 1).blk t).view.emb (ix2 p k)) = _
  rw [V_main_arg1]
  refine congrArg _ ?_
  obtain ⟨e00, e01, e10, e11, e20, e21, e30, e31, e40, e41, e50, e51, e60, e61, e70, e71⟩ := idx_facts t
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

/-- The previous cell state's tile, likewise. -/
theorem read_c (c : Dev nD) (t : Fin cfg0.N) (p : Fin 256) (k : Fin 1024) :
    (iblk m c 2 t : S256x1024.Idx → EReal) (ix2 p k) = (m ((c : Thread nD τ).loc main_arg2)) (ix2 (row t p) k) := by
  show V m c main_arg2 (((cfg0.win 2).blk t).view.emb (ix2 p k)) = _
  rw [V_main_arg2]
  refine congrArg _ ?_
  obtain ⟨e00, e01, e10, e11, e20, e21, e30, e31, e40, e41, e50, e51, e60, e61, e70, e71⟩ := idx_facts t
  funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-- The resident input-weight block is the whole fused array. -/
theorem read_w (c : Dev nD) (t : Fin cfg0.N) (k : Fin 1024) (j : Fin 4096) :
    (iblk m c 3 t : S1024x4096.Idx → EReal) (ix2 k j) = Wcat m c (ix2 k j) := by
  show (V m c main_v1 : S1024x4096.Idx → EReal) (((cfg0.win 3).blk t).view.emb (ix2 k j)) = _
  rw [V_main_v1]
  refine congrArg _ ?_
  obtain ⟨e00, e01, e10, e11, e20, e21, e30, e31, e40, e41, e50, e51, e60, e61, e70, e71⟩ := idx_facts t
  funext a; apply Fin.ext
  match a with
  | ⟨0, _⟩ => show win0_3.index t (0 : Fin 2) * 1024 + 1 * k.val = k.val; omega
  | ⟨1, _⟩ => show win0_3.index t (1 : Fin 2) * 4096 + 1 * j.val = j.val; omega

/-- The resident recurrent-weight block is the whole fused array. -/
theorem read_u (c : Dev nD) (t : Fin cfg0.N) (k : Fin 1024) (j : Fin 4096) :
    (iblk m c 4 t : S1024x4096.Idx → EReal) (ix2 k j) = Ucat m c (ix2 k j) := by
  show (V m c main_v3 : S1024x4096.Idx → EReal) (((cfg0.win 4).blk t).view.emb (ix2 k j)) = _
  rw [V_main_v3]
  refine congrArg _ ?_
  obtain ⟨e00, e01, e10, e11, e20, e21, e30, e31, e40, e41, e50, e51, e60, e61, e70, e71⟩ := idx_facts t
  funext a; apply Fin.ext
  match a with
  | ⟨0, _⟩ => show win0_4.index t (0 : Fin 2) * 1024 + 1 * k.val = k.val; omega
  | ⟨1, _⟩ => show win0_4.index t (1 : Fin 2) * 4096 + 1 * j.val = j.val; omega

/-- The resident bias row is the fused bias. -/
theorem read_b (c : Dev nD) (t : Fin cfg0.N) (j : Fin 4096) :
    (iblk m c 5 t : S1x4096.Idx → EReal) (ix2 0 j) = bcat m c (ix1 j) := by
  show (V m c main_v5 : S1x4096.Idx → EReal) (((cfg0.win 5).blk t).view.emb (ix2 0 j)) = _
  have hemb : ((cfg0.win 5).blk t).view.emb (ix2 (0 : Fin 1) j) = ix2 (0 : Fin 1) j := by
    obtain ⟨e00, e01, e10, e11, e20, e21, e30, e31, e40, e41, e50, e51, e60, e61, e70, e71⟩ := idx_facts t
    funext a; apply Fin.ext
    match a with
    | ⟨0, _⟩ => show win0_5.index t (0 : Fin 2) * 1 + 1 * 0 = 0; omega
    | ⟨1, _⟩ => show win0_5.index t (1 : Fin 2) * 4096 + 1 * j.val = j.val; omega
  rw [hemb]
  exact V_main_v5_apply m c j

/-! ## A tile entry is the array's entry -/

/-- Gate `g` of tile entry `(p, q)` at point `t` is gate `g` of array entry `(256 t + p, q)`. -/
theorem tileGate_eq (c : Dev nD) (t : Fin cfg0.N) (g : Fin 4) (p : Fin 256) (q : Fin 1024) :
    Cert.Spec.tileGate (xblk m c t) (hblk m c t) (wblk m c t) (ublk m c t) (bblk m c t) g p q
      = Cert.Spec.gate (m ((c : Thread nD τ).loc main_arg0)) (m ((c : Thread nD τ).loc main_arg1)) (Wcat m c) (Ucat m c) (bcat m c) g (row t p) q := by
  unfold Cert.Spec.tileGate Cert.Spec.gate
  have ex : (fun k : Fin 1024 => xblk m c t (ix2 p k)) = fun k => (m ((c : Thread nD τ).loc main_arg0)) (ix2 (row t p) k) := funext fun k => read_x m c t p k
  have eh : (fun k : Fin 1024 => hblk m c t (ix2 p k)) = fun k => (m ((c : Thread nD τ).loc main_arg1)) (ix2 (row t p) k) := funext fun k => read_h m c t p k
  have ew : (fun k : Fin 1024 => wblk m c t (ix2 k (Cert.Spec.col g q))) = fun k => Wcat m c (ix2 k (Cert.Spec.col g q)) := funext fun k => read_w m c t k _
  have eu : (fun k : Fin 1024 => ublk m c t (ix2 k (Cert.Spec.col g q))) = fun k => Ucat m c (ix2 k (Cert.Spec.col g q)) := funext fun k => read_u m c t k _
  rw [ex, eh, ew, eu, show bblk m c t (ix2 0 (Cert.Spec.col g q)) = bcat m c (ix1 (Cert.Spec.col g q)) from read_b m c t _]

/-- The cell value of tile entry `(p, q)` at point `t` is that of array entry `(256 t + p, q)`. -/
theorem tileCell_eq (c : Dev nD) (t : Fin cfg0.N) (p : Fin 256) (q : Fin 1024) :
    Cert.Spec.tileCell (xblk m c t) (hblk m c t) (cblk m c t) (wblk m c t) (ublk m c t) (bblk m c t) p q
      = Cert.Spec.cellAt (m ((c : Thread nD τ).loc main_arg0)) (m ((c : Thread nD τ).loc main_arg1)) (m ((c : Thread nD τ).loc main_arg2)) (Wcat m c) (Ucat m c) (bcat m c) (row t p) q := by
  unfold Cert.Spec.tileCell Cert.Spec.cellAt
  rw [tileGate_eq m c t 0 p q, tileGate_eq m c t 1 p q, tileGate_eq m c t 2 p q,
    show cblk m c t (ix2 p q) = (m ((c : Thread nD τ).loc main_arg2)) (ix2 (row t p) q) from read_c m c t p q]

/-- The hidden value of tile entry `(p, q)` at point `t` is that of array entry `(256 t + p, q)`. -/
theorem tileHidden_eq (c : Dev nD) (t : Fin cfg0.N) (p : Fin 256) (q : Fin 1024) :
    Cert.Spec.tileHidden (xblk m c t) (hblk m c t) (cblk m c t) (wblk m c t) (ublk m c t) (bblk m c t) p q
      = Cert.Spec.hiddenAt (m ((c : Thread nD τ).loc main_arg0)) (m ((c : Thread nD τ).loc main_arg1)) (m ((c : Thread nD τ).loc main_arg2)) (Wcat m c) (Ucat m c) (bcat m c) (row t p) q := by
  unfold Cert.Spec.tileHidden Cert.Spec.hiddenAt
  rw [tileGate_eq m c t 3 p q, tileCell_eq m c t p q]

/-! ## The two result arrays -/

/-- What point `t` writes back to the hidden-state array is block `t` of the specification's array. -/
theorem flushed6_eq (c : Dev nD) (t : Fin cfg0.N) :
    (dats m 0 c).flushed 6 t = ((cfg0.win 6).blk t).view.read (Elt Ideal) (Cert.Spec.hiddenNew (m ((c : Thread nD τ).loc main_arg0)) (m ((c : Thread nD τ).loc main_arg1)) (m ((c : Thread nD τ).loc main_arg2)) (Wcat m c) (Ucat m c) (bcat m c)) := by
  show (cfg0.win 6).cut (grid0.coords t) ((dats m 0 c).after 6 t) = _
  rw [after0_6]
  funext y
  obtain ⟨p, q, rfl⟩ : ∃ (p : Fin 256) (q : Fin 1024), y = ix2 p q := ⟨y 0, y 1, eq_ix2 y⟩
  have hemb : ((cfg0.win 6).blk t).view.emb (ix2 p q) = ix2 (row t p) q := by
    obtain ⟨e00, e01, e10, e11, e20, e21, e30, e31, e40, e41, e50, e51, e60, e61, e70, e71⟩ := idx_facts t
    funext a; apply Fin.ext
    match a with
    | ⟨0, _⟩ => show win0_6.index t (0 : Fin 2) * 256 + 1 * p.val = 256 * t.val + p.val; omega
    | ⟨1, _⟩ => show win0_6.index t (1 : Fin 2) * 1024 + 1 * q.val = q.val; omega
  show hiddenTile (xblk m c t) (hblk m c t) (cblk m c t) (wblk m c t) (ublk m c t) (bblk m c t) (ix2 p q)
    = Cert.Spec.hiddenNew (m ((c : Thread nD τ).loc main_arg0)) (m ((c : Thread nD τ).loc main_arg1)) (m ((c : Thread nD τ).loc main_arg2)) (Wcat m c) (Ucat m c) (bcat m c) (((cfg0.win 6).blk t).view.emb (ix2 p q))
  rw [hemb]
  refine (hiddenTile_apply (xblk m c t) (hblk m c t) (cblk m c t) (wblk m c t) (ublk m c t) (bblk m c t) p q).trans ?_
  show Cert.Spec.tileHidden (xblk m c t) (hblk m c t) (cblk m c t) (wblk m c t) (ublk m c t) (bblk m c t) p q
    = Cert.Spec.hiddenAt (m ((c : Thread nD τ).loc main_arg0)) (m ((c : Thread nD τ).loc main_arg1)) (m ((c : Thread nD τ).loc main_arg2)) (Wcat m c) (Ucat m c) (bcat m c) (row t p) q
  exact tileHidden_eq m c t p q

/-- An index of the hidden-state array is in point `t`'s block iff each coordinate is in the block's range. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Every index of the hidden-state array lies in the block of the point its row over 256 names. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  refine ⟨⟨(i 0).val / 256, lt_of_lt_of_eq (by omega) hN.symm⟩, flush0_6 _, ?_⟩
  rw [mem_blk6]
  obtain ⟨e00, e01, e10, e11, e20, e21, e30, e31, e40, e41, e50, e51, e60, e61, e70, e71⟩ := idx_facts ⟨(i 0).val / 256, lt_of_lt_of_eq (by omega) hN.symm⟩
  intro a
  match a with
  | ⟨0, _⟩ =>
    show win0_6.index ⟨(i 0).val / 256, _⟩ (0 : Fin 2) * 256 ≤ (i 0).val ∧ (i 0).val < win0_6.index ⟨(i 0).val / 256, _⟩ (0 : Fin 2) * 256 + 256
    rw [e60]; show (i 0).val / 256 * 256 ≤ (i 0).val ∧ (i 0).val < (i 0).val / 256 * 256 + 256; omega
  | ⟨1, _⟩ =>
    show win0_6.index ⟨(i 0).val / 256, _⟩ (1 : Fin 2) * 1024 ≤ (i 1).val ∧ (i 1).val < win0_6.index ⟨(i 0).val / 256, _⟩ (1 : Fin 2) * 1024 + 1024
    rw [e61]; omega

/-- The hidden-state result ends holding the specification's array. -/
theorem final_hidden (c : Dev nD) : (dats m 0 c).arrAt 6 cfg0.N = Cert.Spec.hiddenNew (m ((c : Thread nD τ).loc main_arg0)) (m ((c : Thread nD τ).loc main_arg1)) (m ((c : Thread nD τ).loc main_arg2)) (Wcat m c) (Ucat m c) (bcat m c) :=
  (dats m 0 c).arrAt_eq_of_cover 6 (Cert.Spec.hiddenNew (m ((c : Thread nD τ).loc main_arg0)) (m ((c : Thread nD τ).loc main_arg1)) (m ((c : Thread nD τ).loc main_arg2)) (Wcat m c) (Ucat m c) (bcat m c)) (fun t _ => flushed6_eq m c t) cover6

/-- What point `t` writes back to the cell-state array is block `t` of the specification's array. -/
theorem flushed7_eq (c : Dev nD) (t : Fin cfg0.N) :
    (dats m 0 c).flushed 7 t = ((cfg0.win 7).blk t).view.read (Elt Ideal) (Cert.Spec.cellNew (m ((c : Thread nD τ).loc main_arg0)) (m ((c : Thread nD τ).loc main_arg1)) (m ((c : Thread nD τ).loc main_arg2)) (Wcat m c) (Ucat m c) (bcat m c)) := by
  show (cfg0.win 7).cut (grid0.coords t) ((dats m 0 c).after 7 t) = _
  rw [after0_7]
  funext y
  obtain ⟨p, q, rfl⟩ : ∃ (p : Fin 256) (q : Fin 1024), y = ix2 p q := ⟨y 0, y 1, eq_ix2 y⟩
  have hemb : ((cfg0.win 7).blk t).view.emb (ix2 p q) = ix2 (row t p) q := by
    obtain ⟨e00, e01, e10, e11, e20, e21, e30, e31, e40, e41, e50, e51, e60, e61, e70, e71⟩ := idx_facts t
    funext a; apply Fin.ext
    match a with
    | ⟨0, _⟩ => show win0_7.index t (0 : Fin 2) * 256 + 1 * p.val = 256 * t.val + p.val; omega
    | ⟨1, _⟩ => show win0_7.index t (1 : Fin 2) * 1024 + 1 * q.val = q.val; omega
  show cellTile (xblk m c t) (hblk m c t) (cblk m c t) (wblk m c t) (ublk m c t) (bblk m c t) (ix2 p q)
    = Cert.Spec.cellNew (m ((c : Thread nD τ).loc main_arg0)) (m ((c : Thread nD τ).loc main_arg1)) (m ((c : Thread nD τ).loc main_arg2)) (Wcat m c) (Ucat m c) (bcat m c) (((cfg0.win 7).blk t).view.emb (ix2 p q))
  rw [hemb]
  refine (cellTile_apply (xblk m c t) (hblk m c t) (cblk m c t) (wblk m c t) (ublk m c t) (bblk m c t) p q).trans ?_
  show Cert.Spec.tileCell (xblk m c t) (hblk m c t) (cblk m c t) (wblk m c t) (ublk m c t) (bblk m c t) p q
    = Cert.Spec.cellAt (m ((c : Thread nD τ).loc main_arg0)) (m ((c : Thread nD τ).loc main_arg1)) (m ((c : Thread nD τ).loc main_arg2)) (Wcat m c) (Ucat m c) (bcat m c) (row t p) q
  exact tileCell_eq m c t p q

/-- An index of the cell-state array is in point `t`'s block iff each coordinate is in the block's range. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Every index of the cell-state array lies in the block of the point its row over 256 names. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  refine ⟨⟨(i 0).val / 256, lt_of_lt_of_eq (by omega) hN.symm⟩, flush0_7 _, ?_⟩
  rw [mem_blk7]
  obtain ⟨e00, e01, e10, e11, e20, e21, e30, e31, e40, e41, e50, e51, e60, e61, e70, e71⟩ := idx_facts ⟨(i 0).val / 256, lt_of_lt_of_eq (by omega) hN.symm⟩
  intro a
  match a with
  | ⟨0, _⟩ =>
    show win0_7.index ⟨(i 0).val / 256, _⟩ (0 : Fin 2) * 256 ≤ (i 0).val ∧ (i 0).val < win0_7.index ⟨(i 0).val / 256, _⟩ (0 : Fin 2) * 256 + 256
    rw [e70]; show (i 0).val / 256 * 256 ≤ (i 0).val ∧ (i 0).val < (i 0).val / 256 * 256 + 256; omega
  | ⟨1, _⟩ =>
    show win0_7.index ⟨(i 0).val / 256, _⟩ (1 : Fin 2) * 1024 ≤ (i 1).val ∧ (i 1).val < win0_7.index ⟨(i 0).val / 256, _⟩ (1 : Fin 2) * 1024 + 1024
    rw [e71]; omega

/-- The cell-state result ends holding the specification's array. -/
theorem final_cell (c : Dev nD) : (dats m 0 c).arrAt 7 cfg0.N = Cert.Spec.cellNew (m ((c : Thread nD τ).loc main_arg0)) (m ((c : Thread nD τ).loc main_arg1)) (m ((c : Thread nD τ).loc main_arg2)) (Wcat m c) (Ucat m c) (bcat m c) :=
  (dats m 0 c).arrAt_eq_of_cover 7 (Cert.Spec.cellNew (m ((c : Thread nD τ).loc main_arg0)) (m ((c : Thread nD τ).loc main_arg1)) (m ((c : Thread nD τ).loc main_arg2)) (Wcat m c) (Ucat m c) (bcat m c)) (fun t _ => flushed7_eq m c t) cover7

/-! ## The run, read -/

/-- Every weakly fair execution terminates with the two results at the specification's arrays and the fifteen
    arguments unchanged. -/
theorem run_value : θ_run defs (onTc (τ := τ) (main (F := Ideal))) ⟨m, fun _ => 0, ρ⟩ (fun r => ∀ c : Dev nD,
      r.2.mem ((c.tc : Thread nD τ).loc main_v6_0) = Cert.Spec.hiddenNew (m ((c : Thread nD τ).loc main_arg0)) (m ((c : Thread nD τ).loc main_arg1)) (m ((c : Thread nD τ).loc main_arg2)) (Wcat m c) (Ucat m c) (bcat m c)
      ∧ r.2.mem ((c.tc : Thread nD τ).loc main_v6_1) = Cert.Spec.cellNew (m ((c : Thread nD τ).loc main_arg0)) (m ((c : Thread nD τ).loc main_arg1)) (m ((c : Thread nD τ).loc main_arg2)) (Wcat m c) (Ucat m c) (bcat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Hand

end
-- ==== Proof.RefIsSpec.lean ====
/-
  The reference, read at an index, is the cell of the specification.
-/
import proofs.«158716_j71957882077215_1_alg».proof.Proof.Gen.ReferenceIdeal.Run
import proofs.«158716_j71957882077215_1_alg».proof.Proof.Gen.ReferenceIdeal.Read
import proofs.«158716_j71957882077215_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ### The composed index maps, at coordinates -/

/-- The left operand of the input product is read at row `r`, position `k`. -/
theorem lidx3_ix (r : Fin 4096) (q : Fin 4096) (k : Fin 1024) : lidx_main_v3 (ix2 r q) k = ix2 r k := by
  funext a; match a with | ⟨0, _⟩ => rfl | ⟨1, _⟩ => rfl

/-- The right operand of the input product is read at position `k`, fused column `q`. -/
theorem ridx3_ix (r : Fin 4096) (q : Fin 4096) (k : Fin 1024) : ridx_main_v3 (ix2 r q) k = ix2 k q := by
  funext a; match a with | ⟨0, _⟩ => rfl | ⟨1, _⟩ => rfl

/-- The left operand of the recurrent product is read at row `r`, position `k`. -/
theorem lidx4_ix (r : Fin 4096) (q : Fin 4096) (k : Fin 1024) : lidx_main_v4 (ix2 r q) k = ix2 r k := by
  funext a; match a with | ⟨0, _⟩ => rfl | ⟨1, _⟩ => rfl

/-- The right operand of the recurrent product is read at position `k`, fused column `q`. -/
theorem ridx4_ix (r : Fin 4096) (q : Fin 4096) (k : Fin 1024) : ridx_main_v4 (ix2 r q) k = ix2 k q := by
  funext a; match a with | ⟨0, _⟩ => rfl | ⟨1, _⟩ => rfl

/-- The two broadcasts of the bias read entry `q`. -/
theorem bias_ix (r : Fin 4096) (q : Fin 4096) : idx_main_v6 (idx_main_v7 (ix2 r q)) = ix1 q := by
  funext a; match a with | ⟨0, _⟩ => rfl

/-- Slice 0 reads fused column `1024 · 0 + c`. -/
theorem idx9_ix (r : Fin 4096) (c : Fin 1024) : idx_main_v9 (ix2 r c) = ix2 r (Cert.Spec.col 0 c) := by
  funext a
  match a with
  | ⟨0, _⟩ => rfl
  | ⟨1, _⟩ => exact Fin.ext (by show c.val = 1024 * 0 + c.val; omega)

/-- Slice 1 reads fused column `1024 · 1 + c`. -/
theorem idx10_ix (r : Fin 4096) (c : Fin 1024) : idx_main_v10 (ix2 r c) = ix2 r (Cert.Spec.col 1 c) := by
  funext a
  match a with
  | ⟨0, _⟩ => rfl
  | ⟨1, _⟩ => exact Fin.ext (by show 1024 + c.val = 1024 * 1 + c.val; omega)

/-- Slice 2 reads fused column `1024 · 2 + c`. -/
theorem idx11_ix (r : Fin 4096) (c : Fin 1024) : idx_main_v11 (ix2 r c) = ix2 r (Cert.Spec.col 2 c) := by
  funext a
  match a with
  | ⟨0, _⟩ => rfl
  | ⟨1, _⟩ => exact Fin.ext (by show 2048 + c.val = 1024 * 2 + c.val; omega)

/-- Slice 3 reads fused column `1024 · 3 + c`. -/
theorem idx12_ix (r : Fin 4096) (c : Fin 1024) : idx_main_v12 (ix2 r c) = ix2 r (Cert.Spec.col 3 c) := by
  funext a
  match a with
  | ⟨0, _⟩ => rfl
  | ⟨1, _⟩ => exact Fin.ext (by show 3072 + c.val = 1024 * 3 + c.val; omega)

/-! ### The four pre-activations -/

/-- The fused pre-activation at row `r` and fused column `1024 g + c` is gate `g` of the specification. -/
theorem pre_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (g : Fin 4) (r : Fin 4096) (c : Fin 1024) :
    val_main_v8 (F := Ideal) x0 x1 x3 x4 x5 x6 x7 x8 x9 x10 x11 x12 x13 x14 (ix2 r (Cert.Spec.col g c))
      = Cert.Spec.gate x0 x1 (val_main_v0 (F := Ideal) x3 x6 x9 x12) (val_main_v1 (F := Ideal) x4 x7 x10 x13) (val_main_v2 (F := Ideal) x5 x8 x11 x14) g r c := by
  rw [val_main_v8_apply, val_main_v5_apply, val_main_v3_apply, val_main_v4_apply, val_main_v7_apply, val_main_v6_apply]
  simp only [lidx3_ix, ridx3_ix, lidx4_ix, ridx4_ix, bias_ix]
  rfl

/-- Slice 0 at `(r, c)` is gate 0. -/
theorem gate0_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v9 (F := Ideal) x0 x1 x3 x4 x5 x6 x7 x8 x9 x10 x11 x12 x13 x14 (ix2 r c)
      = Cert.Spec.gate x0 x1 (val_main_v0 (F := Ideal) x3 x6 x9 x12) (val_main_v1 (F := Ideal) x4 x7 x10 x13) (val_main_v2 (F := Ideal) x5 x8 x11 x14) 0 r c := by
  rw [val_main_v9_apply, idx9_ix]
  exact pre_apply x0 x1 x3 x4 x5 x6 x7 x8 x9 x10 x11 x12 x13 x14 0 r c

/-- Slice 1 at `(r, c)` is gate 1. -/
theorem gate1_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v10 (F := Ideal) x0 x1 x3 x4 x5 x6 x7 x8 x9 x10 x11 x12 x13 x14 (ix2 r c)
      = Cert.Spec.gate x0 x1 (val_main_v0 (F := Ideal) x3 x6 x9 x12) (val_main_v1 (F := Ideal) x4 x7 x10 x13) (val_main_v2 (F := Ideal) x5 x8 x11 x14) 1 r c := by
  rw [val_main_v10_apply, idx10_ix]
  exact pre_apply x0 x1 x3 x4 x5 x6 x7 x8 x9 x10 x11 x12 x13 x14 1 r c

/-- Slice 2 at `(r, c)` is gate 2. -/
theorem gate2_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v11 (F := Ideal) x0 x1 x3 x4 x5 x6 x7 x8 x9 x10 x11 x12 x13 x14 (ix2 r c)
      = Cert.Spec.gate x0 x1 (val_main_v0 (F := Ideal) x3 x6 x9 x12) (val_main_v1 (F := Ideal) x4 x7 x10 x13) (val_main_v2 (F := Ideal) x5 x8 x11 x14) 2 r c := by
  rw [val_main_v11_apply, idx11_ix]
  exact pre_apply x0 x1 x3 x4 x5 x6 x7 x8 x9 x10 x11 x12 x13 x14 2 r c

/-- Slice 3 at `(r, c)` is gate 3. -/
theorem gate3_apply (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v12 (F := Ideal) x0 x1 x3 x4 x5 x6 x7 x8 x9 x10 x11 x12 x13 x14 (ix2 r c)
      = Cert.Spec.gate x0 x1 (val_main_v0 (F := Ideal) x3 x6 x9 x12) (val_main_v1 (F := Ideal) x4 x7 x10 x13) (val_main_v2 (F := Ideal) x5 x8 x11 x14) 3 r c := by
  rw [val_main_v12_apply, idx12_ix]
  exact pre_apply x0 x1 x3 x4 x5 x6 x7 x8 x9 x10 x11 x12 x13 x14 3 r c

/-! ### The two results at coordinates -/

/-- The new cell state at `(r, c)`. -/
theorem cell_at (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v34 (F := Ideal) x0 x1 x2 x3 x4 x5 x6 x7 x8 x9 x10 x11 x12 x13 x14 (ix2 r c)
      = Cert.Spec.cellAt x0 x1 x2 (val_main_v0 (F := Ideal) x3 x6 x9 x12) (val_main_v1 (F := Ideal) x4 x7 x10 x13) (val_main_v2 (F := Ideal) x5 x8 x11 x14) r c := by
  rw [val_main_v34_apply, val_main_v32_apply, val_main_v33_apply, val_main_v18_apply, val_main_v24_apply, val_main_v25_apply,
    val_main_v17_apply, val_main_v23_apply, val_main_v16_apply, val_main_v22_apply, val_main_v15_apply, val_main_v21_apply,
    val_main_v14_apply, val_main_v20_apply, val_main_v13_apply, val_main_v19_apply,
    val_main_cst_apply, val_main_cst_0_apply, val_main_cst_1_apply, val_main_cst_2_apply,
    gate0_apply, gate1_apply, gate2_apply]
  unfold Cert.Spec.cellAt Cert.Spec.cellOf Ideal.logistic
  simp only [Ideal.addf_def, Ideal.mulf_def, Ideal.hostDivf_def, Ideal.hostUnary_exp_def, Ideal.hostUnary_tanh_def, Ideal.hostNegf_def, Ideal.negf_def,
    Ideal.ofBits_def, Ideal.ofBits_one_f32]

/-- The new hidden state at `(r, c)`. -/
theorem hidden_at (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (c : Fin 1024) :
    val_main_v36 (F := Ideal) x0 x1 x2 x3 x4 x5 x6 x7 x8 x9 x10 x11 x12 x13 x14 (ix2 r c)
      = Cert.Spec.hiddenAt x0 x1 x2 (val_main_v0 (F := Ideal) x3 x6 x9 x12) (val_main_v1 (F := Ideal) x4 x7 x10 x13) (val_main_v2 (F := Ideal) x5 x8 x11 x14) r c := by
  rw [val_main_v36_apply, val_main_v35_apply, cell_at, val_main_v31_apply, val_main_v30_apply, val_main_v29_apply, val_main_v28_apply,
    val_main_v27_apply, val_main_v26_apply, val_main_cst_3_apply, val_main_cst_4_apply, gate3_apply]
  unfold Cert.Spec.hiddenAt Cert.Spec.hiddenOf Ideal.logistic
  simp only [Ideal.addf_def, Ideal.mulf_def, Ideal.hostDivf_def, Ideal.hostUnary_exp_def, Ideal.hostUnary_tanh_def, Ideal.hostNegf_def, Ideal.negf_def,
    Ideal.ofBits_def, Ideal.ofBits_one_f32]

/-- The reference's new cell state is the specification's, over the three fused parameter arrays. -/
theorem ref_cell (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v34 (F := Ideal) x0 x1 x2 x3 x4 x5 x6 x7 x8 x9 x10 x11 x12 x13 x14
      = Cert.Spec.cellNew x0 x1 x2 (val_main_v0 (F := Ideal) x3 x6 x9 x12) (val_main_v1 (F := Ideal) x4 x7 x10 x13) (val_main_v2 (F := Ideal) x5 x8 x11 x14) := by
  funext j
  obtain ⟨r, c, rfl⟩ : ∃ (r : Fin 4096) (c : Fin 1024), j = ix2 r c := ⟨j 0, j 1, eq_ix2 j⟩
  exact cell_at x0 x1 x2 x3 x4 x5 x6 x7 x8 x9 x10 x11 x12 x13 x14 r c

/-- The reference's new hidden state is the specification's, over the three fused parameter arrays. -/
theorem ref_hidden (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v36 (F := Ideal) x0 x1 x2 x3 x4 x5 x6 x7 x8 x9 x10 x11 x12 x13 x14
      = Cert.Spec.hiddenNew x0 x1 x2 (val_main_v0 (F := Ideal) x3 x6 x9 x12) (val_main_v1 (F := Ideal) x4 x7 x10 x13) (val_main_v2 (F := Ideal) x5 x8 x11 x14) := by
  funext j
  obtain ⟨r, c, rfl⟩ : ∃ (r : Fin 4096) (c : Fin 1024), j = ix2 r c := ⟨j 0, j 1, eq_ix2 j⟩
  exact hidden_at x0 x1 x2 x3 x4 x5 x6 x7 x8 x9 x10 x11 x12 x13 x14 r c

end Cert.ReferenceIdeal.RefValue

end
-- ==== Proof.lean ====
/-
  The certificate of one fused recurrent-cell kernel against its plain reference.

  The kernel concatenates the four gates' input weights, recurrent weights and biases on the host, then runs one
  pipelined region over sixteen tiles of 256 batch rows; at each tile it forms the four gates' pre-activations as
  tile × weight-columns products plus the bias, applies the logistic function and the hyperbolic tangent, and stores
  the new cell tile  σ(z_f)·c_prev + σ(z_i)·tanh(z_g)  and the new hidden tile  σ(z_o)·tanh(new cell).  The reference
  forms the fused pre-activations over the whole batch with two products, slices the four gates out, and applies the
  same expressions. At the ideal values both results are, entry by entry, the same sums and products in the same
  order over the same fused arrays, so the two programs' results are equal without any further law.

  Frames: the kernel program runs to the end and leaves its arguments unchanged at either float instance (the
  pipeline's proof data over the body's triple); the reference's frame is its run with the results dropped. The
  idealization rewrote nothing, so there is nothing to preserve.
-/
import proofs.«158716_j71957882077215_1_alg».proof.Defs
import proofs.«158716_j71957882077215_1_alg».proof.Proof.Gen.Kernel
import proofs.«158716_j71957882077215_1_alg».proof.Proof.Gen.KernelIdeal
import proofs.«158716_j71957882077215_1_alg».proof.Proof.Gen.ReferenceIdeal
import proofs.«158716_j71957882077215_1_alg».proof.Proof.Gen.Pre_finite_inputs
import proofs.«158716_j71957882077215_1_alg».proof.Proof.Gen.ReferenceIdeal.Run
import proofs.«158716_j71957882077215_1_alg».proof.Proof.Gen.ReferenceIdeal.Read
import proofs.«158716_j71957882077215_1_alg».proof.Proof.KRun
import proofs.«158716_j71957882077215_1_alg».proof.Proof.KIArr
import proofs.«158716_j71957882077215_1_alg».proof.Proof.RefIsSpec

noncomputable section

namespace Cert.Proof

open Idealize.ShloMosaic Idealize.ShloMosaic.TcCoe Idealize.SL.Sem

/-- The word-level kernel program runs, faults nowhere and keeps its arguments. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the fifteen arguments both programs end with the specification's hidden-state and
    cell-state arrays over the kernel's fused parameter arrays: the kernel by the tiles it writes back, the reference
    by its operations read at an index; the fused arrays are the same concatenations on both sides. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.hiddenNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Hand.Wcat m c) (Cert.KernelIdeal.Hand.Ucat m c) (Cert.KernelIdeal.Hand.bcat m c),
    fun c => Cert.Spec.cellNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Hand.Wcat m c) (Cert.KernelIdeal.Hand.Ucat m c) (Cert.KernelIdeal.Hand.bcat m c),
    Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8, e9, e10, e11, e12, e13, e14⟩ := hagree c
    rw [(h c).1, Cert.ReferenceIdeal.Read.val_main_v36_eq, Cert.ReferenceIdeal.RefValue.ref_hidden,
      e0, e1, e2, e3, e4, e5, e6, e7, e8, e9, e10, e11, e12, e13, e14]
    rfl
  · obtain ⟨e0, e1, e2, e3, e4, e5, e6, e7, e8, e9, e10, e11, e12, e13, e14⟩ := hagree c
    rw [(h c).2.1, Cert.ReferenceIdeal.Read.val_main_v34_eq, Cert.ReferenceIdeal.RefValue.ref_cell,
      e0, e1, e2, e3, e4, e5, e6, e7, e8, e9, e10, e11, e12, e13, e14]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
